-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S_ : Shape := ⟨0, ![]⟩

class Facts : Prop where
  bcast_S_S128x4x408 : S_.BroadcastsInDim S128x4x408 (![] : Fin 0 → Fin S128x4x408.rank)
  reducesTo_S128x4x408_S_d0_1_2 : S128x4x408.ReducesTo [0, 1, 2] S_
  h_S_ : 0 < S_.numel
  bcast_S_S128x4x64x408 : S_.BroadcastsInDim S128x4x64x408 (![] : Fin 0 → Fin S128x4x64x408.rank)
  reducesTo_S128x4x64x408_S_d0_1_2_3 : S128x4x64x408.ReducesTo [0, 1, 2, 3] S_
  bcast_S_S408 : S_.BroadcastsInDim S408 (![] : Fin 0 → Fin S408.rank)
  reducesTo_S408_S_d0 : S408.ReducesTo [0] S_
  bcast_S_S128x3 : S_.BroadcastsInDim S128x3 (![] : Fin 0 → Fin S128x3.rank)
  reducesTo_S128x3_S_d0_1 : S128x3.ReducesTo [0, 1] S_

variable [Facts]

def fn_part2 {F : FTy → Type} [FloatOps F] (main_arg7 : FVec F S128x3 .f32) (main_arg8 : FVec F S128x3 .f32) (main_arg9 : FVec F S128x3 .f32) (main_v33 : IVec S_ 1) : IVec S_ 1 :=
  let main_v34 : FVec F S128x3 .f32 := Host.absf main_arg7
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S128x3 .f32 := Host.absf main_arg8
  let main_cst_14 : FVec F S_ .f32 := constant S_ .f32 0x7F800000#32
  let main_v40 : FVec F S128x3 .f32 := broadcastInDim S128x3 ![] bcast_S_S128x3 main_cst_14
  let main_v41 : IVec S128x3 1 := cmpf .olt main_v39 main_v40
  let main_c_15 : IVec S_ 1 := constantI S_ 1 1#1
  let main_v42 : IVec S_ 1 := (fun x v => Host.reduce IntOp.andi x v reducesTo_S128x3_S_d0_1 h_S_) main_v41 main_c_15
  let main_v43 : IVec S_ 1 := andi main_v38 main_v42
  let main_v44 : FVec F S128x3 .f32 := Host.absf main_arg9
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  main_v48

def fn_part1 {F : FTy → Type} [FloatOps F] (main_arg4 : FVec F S128x4x64x408 .f32) (main_arg5 : FVec F S128x4x64x408 .f32) (main_arg6 : FVec F S408 .f32) (main_arg7 : FVec F S128x3 .f32) (main_arg8 : FVec F S128x3 .f32) (main_arg9 : FVec F S128x3 .f32) (main_v13 : IVec S_ 1) (main_v16 : IVec S128x4x64x408 1) : IVec S_ 1 :=
  let main_c_5 : IVec S_ 1 := constantI S_ 1 1#1
  let main_v17 : IVec S_ 1 := (fun x v => Host.reduce IntOp.andi x v reducesTo_S128x4x64x408_S_d0_1_2_3 h_S_) main_v16 main_c_5
  let main_v18 : IVec S_ 1 := andi main_v13 main_v17
  let main_v19 : FVec F S128x4x64x408 .f32 := Host.absf main_arg4
  let main_cst_6 : FVec F S_ .f32 := constant S_ .f32 0x7F800000#32
  let main_v20 : FVec F S128x4x64x408 .f32 := broadcastInDim S128x4x64x408 ![] bcast_S_S128x4x64x408 main_cst_6
  let main_v21 : IVec S128x4x64x408 1 := cmpf .olt main_v19 main_v20
  let main_c_7 : IVec S_ 1 := constantI S_ 1 1#1
  let main_v22 : IVec S_ 1 := (fun x v => Host.reduce IntOp.andi x v reducesTo_S128x4x64x408_S_d0_1_2_3 h_S_) main_v21 main_c_7
  let main_v23 : IVec S_ 1 := andi main_v18 main_v22
  let main_v24 : FVec F S128x4x64x408 .f32 := Host.absf main_arg5
  let main_cst_8 : FVec F S_ .f32 := constant S_ .f32 0x7F800000#32
  let main_v25 : FVec F S128x4x64x408 .f32 := broadcastInDim S128x4x64x408 ![] bcast_S_S128x4x64x408 main_cst_8
  let main_v26 : IVec S128x4x64x408 1 := cmpf .olt main_v24 main_v25
  let main_c_9 : IVec S_ 1 := constantI S_ 1 1#1
  let main_v27 : IVec S_ 1 := (fun x v => Host.reduce IntOp.andi x v reducesTo_S128x4x64x408_S_d0_1_2_3 h_S_) main_v26 main_c_9
  let main_v28 : IVec S_ 1 := andi main_v23 main_v27
  let main_v29 : FVec F S408 .f32 := Host.absf main_arg6
  let main_cst_10 : FVec F S_ .f32 := constant S_ .f32 0x7F800000#32
  let main_v30 : FVec F S408 .f32 := broadcastInDim S408 ![] bcast_S_S408 main_cst_10
  let main_v31 : IVec S408 1 := cmpf .olt main_v29 main_v30
  let main_c_11 : IVec S_ 1 := constantI S_ 1 1#1
  let main_v32 : IVec S_ 1 := (fun x v => Host.reduce IntOp.andi x v reducesTo_S408_S_d0 h_S_) main_v31 main_c_11
  let main_v33 : IVec S_ 1 := andi main_v28 main_v32
  fn_part2 (F := F) main_arg7 main_arg8 main_arg9 main_v33

def fn {F : FTy → Type} [FloatOps F] (main_arg0 : FVec F S128x4x408 .f32) (main_arg1 : FVec F S128x4x408 .f32) (main_arg2 : FVec F S128x4x64x408 .f32) (main_arg3 : FVec F S128x4x64x408 .f32) (main_arg4 : FVec F S128x4x64x408 .f32) (main_arg5 : FVec F S128x4x64x408 .f32) (main_arg6 : FVec F S408 .f32) (main_arg7 : FVec F S128x3 .f32) (main_arg8 : FVec F S128x3 .f32) (main_arg9 : FVec F S128x3 .f32) (main_arg10 : IVec S128 32) : IVec S_ 1 :=
  let main_v0 : FVec F S128x4x408 .f32 := Host.absf main_arg0
  let main_cst : FVec F S_ .f32 := constant S_ .f32 0x7F800000#32
  let main_v1 : FVec F S128x4x408 .f32 := broadcastInDim S128x4x408 ![] bcast_S_S128x4x408 main_cst
  let main_v2 : IVec S128x4x408 1 := cmpf .olt main_v0 main_v1
  let main_c : IVec S_ 1 := constantI S_ 1 1#1
  let main_v3 : IVec S_ 1 := (fun x v => Host.reduce IntOp.andi x v reducesTo_S128x4x408_S_d0_1_2 h_S_) main_v2 main_c
  let main_v4 : FVec F S128x4x408 .f32 := Host.absf main_arg1
  let main_cst_0 : FVec F S_ .f32 := constant S_ .f32 0x7F800000#32
  let main_v5 : FVec F S128x4x408 .f32 := broadcastInDim S128x4x408 ![] bcast_S_S128x4x408 main_cst_0
  let main_v6 : IVec S128x4x408 1 := cmpf .olt main_v4 main_v5
  let main_c_1 : IVec S_ 1 := constantI S_ 1 1#1
  let main_v7 : IVec S_ 1 := (fun x v => Host.reduce IntOp.andi x v reducesTo_S128x4x408_S_d0_1_2 h_S_) main_v6 main_c_1
  let main_v8 : IVec S_ 1 := andi main_v3 main_v7
  let main_v9 : FVec F S128x4x64x408 .f32 := Host.absf main_arg2
  let main_cst_2 : FVec F S_ .f32 := constant S_ .f32 0x7F800000#32
  let main_v10 : FVec F S128x4x64x408 .f32 := broadcastInDim S128x4x64x408 ![] bcast_S_S128x4x64x408 main_cst_2
  let main_v11 : IVec S128x4x64x408 1 := cmpf .olt main_v9 main_v10
  let main_c_3 : IVec S_ 1 := constantI S_ 1 1#1
  let main_v12 : IVec S_ 1 := (fun x v => Host.reduce IntOp.andi x v reducesTo_S128x4x64x408_S_d0_1_2_3 h_S_) main_v11 main_c_3
  let main_v13 : IVec S_ 1 := andi main_v8 main_v12
  let main_v14 : FVec F S128x4x64x408 .f32 := Host.absf main_arg3
  let main_cst_4 : FVec F S_ .f32 := constant S_ .f32 0x7F800000#32
  let main_v15 : FVec F S128x4x64x408 .f32 := broadcastInDim S128x4x64x408 ![] bcast_S_S128x4x64x408 main_cst_4
  let main_v16 : IVec S128x4x64x408 1 := cmpf .olt main_v14 main_v15
  fn_part1 (F := F) main_arg4 main_arg5 main_arg6 main_arg7 main_arg8 main_arg9 main_v13 main_v16
-- ==== Kernel.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S1x1 : Shape := ⟨2, ![1, 1]⟩
abbrev S4x4x408 : Shape := ⟨3, ![4, 4, 408]⟩
abbrev S4x4x64x408 : Shape := ⟨4, ![4, 4, 64, 408]⟩
abbrev S4x4x1x408 : Shape := ⟨4, ![4, 4, 1, 408]⟩
abbrev S1x1x1x408 : Shape := ⟨4, ![1, 1, 1, 408]⟩
abbrev S4x64x408 : Shape := ⟨3, ![4, 64, 408]⟩
abbrev S64x408 : Shape := ⟨2, ![64, 408]⟩
abbrev S64 : Shape := ⟨1, ![64]⟩
abbrev S64x1 : Shape := ⟨2, ![64, 1]⟩
abbrev S1 : Shape := ⟨1, ![1]⟩
abbrev S4x408 : Shape := ⟨2, ![4, 408]⟩
abbrev S4 : Shape := ⟨1, ![4]⟩
abbrev S4x1 : Shape := ⟨2, ![4, 1]⟩
abbrev S_ : Shape := ⟨0, ![]⟩

abbrev nBuf : Space → Nat
  | .hbm => 13
  | .vmem => 17
  | .smem => 0
  | _ => 0

abbrev bufTy : (tb : Table) → Fin (tcTables nBuf tb) → BufTy
  | .hbm, ⟨0, _⟩ => ⟨S128x4x408, .f32⟩
  | .hbm, ⟨1, _⟩ => ⟨S128x4x408, .f32⟩
  | .hbm, ⟨2, _⟩ => ⟨S128x4x64x408, .f32⟩
  | .hbm, ⟨3, _⟩ => ⟨S128x4x64x408, .f32⟩
  | .hbm, ⟨4, _⟩ => ⟨S128x4x64x408, .f32⟩
  | .hbm, ⟨5, _⟩ => ⟨S128x4x64x408, .f32⟩
  | .hbm, ⟨6, _⟩ => ⟨S408, .f32⟩
  | .hbm, ⟨7, _⟩ => ⟨S128x3, .f32⟩
  | .hbm, ⟨8, _⟩ => ⟨S128x3, .f32⟩
  | .hbm, ⟨9, _⟩ => ⟨S128x3, .f32⟩
  | .hbm, ⟨10, _⟩ => ⟨S128, .i32⟩
  | .hbm, ⟨11, _⟩ => ⟨S1x1, .f32⟩
  | .hbm, ⟨12, _⟩ => ⟨S_, .f32⟩
  | .local _ .vmem, ⟨0, _⟩ => ⟨S4x4x408, .f32⟩
  | .local _ .vmem, ⟨1, _⟩ => ⟨S4x4x408, .f32⟩
  | .local _ .vmem, ⟨2, _⟩ => ⟨S4x4x408, .f32⟩
  | .local _ .vmem, ⟨3, _⟩ => ⟨S4x4x408, .f32⟩
  | .local _ .vmem, ⟨4, _⟩ => ⟨S4x4x64x408, .f32⟩
  | .local _ .vmem, ⟨5, _⟩ => ⟨S4x4x64x408, .f32⟩
  | .local _ .vmem, ⟨6, _⟩ => ⟨S4x4x64x408, .f32⟩
  | .local _ .vmem, ⟨7, _⟩ => ⟨S4x4x64x408, .f32⟩
  | .local _ .vmem, ⟨8, _⟩ => ⟨S4x4x64x408, .f32⟩
  | .local _ .vmem, ⟨9, _⟩ => ⟨S4x4x64x408, .f32⟩
  | .local _ .vmem, ⟨10, _⟩ => ⟨S4x4x64x408, .f32⟩
  | .local _ .vmem, ⟨11, _⟩ => ⟨S4x4x64x408, .f32⟩
  | .local _ .vmem, ⟨12, _⟩ => ⟨S408, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | _, _ => ⟨S128x4x408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v80 : BitVec 1 := Scalar.cmpi .eq arg0 c31_i32
  let v81 : BitVec 32 := Scalar.extui v80
  let c0_i32_49 : BitVec 32 := 0#32
  let v82 : BitVec 1 := Scalar.cmpi .ne v81 c0_i32_49
  v82

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x4x408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x64x408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x64x408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x64x408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x64x408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x4x408_S4x4x408_0_0_0 : ∀ a, (![0, 0, 0] : Fin 3 → Nat) a + S4x4x408.size a ≤ S4x4x408.size a
  h_S4x4x408 : 0 < S4x4x408.numel
  inb_S4x4x64x408_S4x4x64x408_0_0_0_0 : ∀ a, (![0, 0, 0, 0] : Fin 4 → Nat) a + S4x4x64x408.size a ≤ S4x4x64x408.size a
  h_S4x4x64x408 : 0 < S4x4x64x408.numel
  inb_S408_S408_0 : ∀ a, (![0] : Fin 1 → Nat) a + S408.size a ≤ S408.size a
  h_S408 : 0 < S408.numel
  shapeCasts_S4x4x408_S4x4x1x408 : S4x4x408.ShapeCasts S4x4x1x408
  broadcasts_S4x4x1x408_S4x4x64x408 : S4x4x1x408.Broadcasts S4x4x64x408
  shapeCasts_S408_S1x1x1x408 : S408.ShapeCasts S1x1x1x408
  broadcasts_S1x1x1x408_S4x4x64x408 : S1x1x1x408.Broadcasts S4x4x64x408
  reduces_S4x4x64x408_S4x64x408 : S4x4x64x408.Reduces [0] S4x64x408
  reduces_S4x64x408_S64x408 : S4x64x408.Reduces [0] S64x408
  reduces_S64x408_S64 : S64x408.Reduces [1] S64
  shapeCasts_S64_S64x1 : S64.ShapeCasts S64x1
  reduces_S64x1_S1 : S64x1.Reduces [0] S1
  shapeCasts_S1_S1x1 : S1.ShapeCasts S1x1
  reduces_S4x4x408_S4x408 : S4x4x408.Reduces [0] S4x408
  reduces_S4x408_S4 : S4x408.Reduces [1] S4
  shapeCasts_S4_S4x1 : S4.ShapeCasts S4x1
  reduces_S4x1_S1 : S4x1.Reduces [0] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4x408.size a ≤ S128x4x408.size a
  hwx0_0 : ∀ i : grid0.Coords, EltTy.bits .f32 = 32 ∨ (Rect.block (s := S128x4x408) S4x4x408.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x408.size a ≤ S128x4x408.size a
  hwx0_1 : ∀ i : grid0.Coords, EltTy.bits .f32 = 32 ∨ (Rect.block (s := S128x4x408) S4x4x408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x64x408.size a ≤ S128x4x64x408.size a
  hwx0_2 : ∀ i : grid0.Coords, EltTy.bits .f32 = 32 ∨ (Rect.block (s := S128x4x64x408) S4x4x64x408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4x64x408.size a ≤ S128x4x64x408.size a
  hwx0_3 : ∀ i : grid0.Coords, EltTy.bits .f32 = 32 ∨ (Rect.block (s := S128x4x64x408) S4x4x64x408.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x4x64x408.size a ≤ S128x4x64x408.size a
  hwx0_4 : ∀ i : grid0.Coords, EltTy.bits .f32 = 32 ∨ (Rect.block (s := S128x4x64x408) S4x4x64x408.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x4x64x408.size a ≤ S128x4x64x408.size a
  hwx0_5 : ∀ i : grid0.Coords, EltTy.bits .f32 = 32 ∨ (Rect.block (s := S128x4x64x408) S4x4x64x408.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S408.size a ≤ S408.size a
  hwx0_6 : ∀ i : grid0.Coords, EltTy.bits .f32 = 32 ∨ (Rect.block (s := S408) S408.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg0) S4x4x408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4x408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4x64x408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4x64x408.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x4x64x408.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x4x64x408.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S408.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S128x4x408 : Shape := ⟨3, ![128, 4, 408]⟩
abbrev S128x4x64x408 : Shape := ⟨4, ![128, 4, 64, 408]⟩
abbrev S408 : Shape := ⟨1, ![408]⟩
abbrev S128x3 : Shape := ⟨2, ![128, 3]⟩
abbrev S128 : Shape := ⟨1, ![128]⟩
abbrev S128x4x1x408 : Shape := ⟨4, ![128, 4, 1, 408]⟩
abbrev S1x1x1x408 : Shape := ⟨4, ![1, 1, 1, 408]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S128x4x408, .f32⟩
  | .hbm, ⟨1, _⟩ => ⟨S128x4x408, .f32⟩
  | .hbm, ⟨2, _⟩ => ⟨S128x4x64x408, .f32⟩
  | .hbm, ⟨3, _⟩ => ⟨S128x4x64x408, .f32⟩
  | .hbm, ⟨4, _⟩ => ⟨S128x4x64x408, .f32⟩
  | .hbm, ⟨5, _⟩ => ⟨S128x4x64x408, .f32⟩
  | .hbm, ⟨6, _⟩ => ⟨S408, .f32⟩
  | .hbm, ⟨7, _⟩ => ⟨S128x3, .f32⟩
  | .hbm, ⟨8, _⟩ => ⟨S128x3, .f32⟩
  | .hbm, ⟨9, _⟩ => ⟨S128x3, .f32⟩
  | .hbm, ⟨10, _⟩ => ⟨S128, .i32⟩
  | .hbm, ⟨11, _⟩ => ⟨S128x4x1x408, .f32⟩
  | .hbm, ⟨12, _⟩ => ⟨S128x4x1x408, .f32⟩
  | .hbm, ⟨13, _⟩ => ⟨S128x4x64x408, .f32⟩
  | .hbm, ⟨14, _⟩ => ⟨S128x4x64x408, .f32⟩
  | .hbm, ⟨15, _⟩ => ⟨S128x4x64x408, .f32⟩
  | .hbm, ⟨16, _⟩ => ⟨S128x4x64x408, .f32⟩
  | .hbm, ⟨17, _⟩ => ⟨S128x4x64x408, .f32⟩
  | .hbm, ⟨18, _⟩ => ⟨S128x4x64x408, .f32⟩
  | .hbm, ⟨19, _⟩ => ⟨S128x4x64x408, .f32⟩
  | .hbm, ⟨20, _⟩ => ⟨S128x4x64x408, .f32⟩
  | .hbm, ⟨21, _⟩ => ⟨S128x4x64x408, .f32⟩
  | .hbm, ⟨22, _⟩ => ⟨S128x4x64x408, .f32⟩
  | .hbm, ⟨23, _⟩ => ⟨S128x4x64x408, .f32⟩
  | .hbm, ⟨24, _⟩ => ⟨S128x4x64x408, .f32⟩
  | .hbm, ⟨25, _⟩ => ⟨S128x4x64x408, .f32⟩
  | .hbm, ⟨26, _⟩ => ⟨S128x4x64x408, .f32⟩
  | .hbm, ⟨27, _⟩ => ⟨S128x4x64x408, .f32⟩
  | .hbm, ⟨28, _⟩ => ⟨S1x1x1x408, .f32⟩
  | .hbm, ⟨29, _⟩ => ⟨S128x4x64x408, .f32⟩
  | .hbm, ⟨30, _⟩ => ⟨S128x4x64x408, .f32⟩
  | .hbm, ⟨31, _⟩ => ⟨S_, .f32⟩
  | .hbm, ⟨32, _⟩ => ⟨S_, .f32⟩
  | .hbm, ⟨33, _⟩ => ⟨S128x4x408, .f32⟩
  | .hbm, ⟨34, _⟩ => ⟨S128x4x408, .f32⟩
  | .hbm, ⟨35, _⟩ => ⟨S128x4x408, .f32⟩
  | .hbm, ⟨36, _⟩ => ⟨S128x4x408, .f32⟩
  | .hbm, ⟨37, _⟩ => ⟨S128x4x64x408, .f32⟩
  | .hbm, ⟨38, _⟩ => ⟨S128x4x64x408, .f32⟩
  | .hbm, ⟨39, _⟩ => ⟨S128x4x64x408, .f32⟩
  | .hbm, ⟨40, _⟩ => ⟨S128x4x64x408, .f32⟩
  | .hbm, ⟨41, _⟩ => ⟨S_, .f32⟩
  | .hbm, ⟨42, _⟩ => ⟨S128x4x408, .f32⟩
  | .hbm, ⟨43, _⟩ => ⟨S128x4x408, .f32⟩
  | .hbm, ⟨44, _⟩ => ⟨S_, .f32⟩
  | .hbm, ⟨45, _⟩ => ⟨S128x4x408, .f32⟩
  | .hbm, ⟨46, _⟩ => ⟨S128x4x408, .f32⟩
  | .hbm, ⟨47, _⟩ => ⟨S128x4x408, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128x4x64x408, .f32⟩
  | .hbm, ⟨54, _⟩ => ⟨S128x4x64x408, .f32⟩
  | .hbm, ⟨55, _⟩ => ⟨S_, .f32⟩
  | .hbm, ⟨56, _⟩ => ⟨S128x4x64x408, .f32⟩
  | .hbm, ⟨57, _⟩ => ⟨S128x4x64x408, .f32⟩
  | .hbm, ⟨58, _⟩ => ⟨S128x4x64x408, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S128x4x408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  bcast_S128x4x408_S128x4x1x408_0_1_3 : S128x4x408.BroadcastsInDim S128x4x1x408 (![0, 1, 3] : Fin 3 → Fin S128x4x1x408.rank)
  bcast_S128x4x1x408_S128x4x64x408_0_1_2_3 : S128x4x1x408.BroadcastsInDim S128x4x64x408 (![0, 1, 2, 3] : Fin 4 → Fin S128x4x64x408.rank)
  bcast_S408_S1x1x1x408_3 : S408.BroadcastsInDim S1x1x1x408 (![3] : Fin 1 → Fin S1x1x1x408.rank)
  bcast_S1x1x1x408_S128x4x64x408_0_1_2_3 : S1x1x1x408.BroadcastsInDim S128x4x64x408 (![0, 1, 2, 3] : Fin 4 → Fin S128x4x64x408.rank)
  reducesTo_S128x4x64x408_S_d0_1_2_3 : S128x4x64x408.ReducesTo [0, 1, 2, 3] S_
  h_S_ : 0 < S_.numel
  bcast_S_S128x4x408 : S_.BroadcastsInDim S128x4x408 (![] : Fin 0 → Fin S128x4x408.rank)
  reducesTo_S128x4x408_S_d0_1_2 : S128x4x408.ReducesTo [0, 1, 2] S_
  bcast_S_S128x4x64x408 : S_.BroadcastsInDim S128x4x64x408 (![] : Fin 0 → Fin S128x4x64x408.rank)

variable [Facts₀]

class Facts : Prop extends Facts₀ where

variable [Facts]
-- ==== Proof.Pieces.lean ====
/-
  What one grid point leaves in the three one-cell accumulators and in the output cell, case by case, as
  values of the body's payloads.

  The body keeps three running sums in scratch cells: the weighted squared error, the attenuation term
  and the radiation term. At the first point each cell is first set to zero and then has the point's
  partial sum added to that zero; at every later point the partial sum is added to what the point before
  left; at the last point, after the three additions, the output cell is written from the three cells
  just updated. Each lemma below reads the cell's covering store back: the store's payload, with the
  loads in it read as the whole buffers they load.
-/
import proofs.«173876_j88373247082702_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A middle point: each cell is what the point before left plus this point's partial sum -/

/-- A middle point leaves in the weighted squared error's accumulator the previous contents plus the point's partial sum. -/
theorem mid_0 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay10 (k0_pay7 x0 x1 x2 x3 x4 x5 x6) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- A middle point leaves in the attenuation term's accumulator the previous contents plus the point's partial sum. -/
theorem mid_1 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay1 (k0_pay8 x0 x1) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- A middle point leaves in the radiation term's accumulator the previous contents plus the point's partial sum. -/
theorem mid_2 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay2 (k0_pay9 x2 x3) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-! ## The last point: the same three additions, then the output cell from the three updated cells -/

/-- The last point leaves in the weighted squared error's accumulator the previous contents plus the point's partial sum. -/
theorem last_0 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay10 (k0_pay7 x0 x1 x2 x3 x4 x5 x6) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- The last point leaves in the attenuation term's accumulator the previous contents plus the point's partial sum. -/
theorem last_1 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay1 (k0_pay8 x0 x1) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- The last point leaves in the radiation term's accumulator the previous contents plus the point's partial sum. -/
theorem last_2 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay2 (k0_pay9 x2 x3) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- The last point writes the output cell from the three cells as it has just updated them. -/
theorem last_out (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) (xs0 : Vec F S1x1 .f32) (xs1 : Vec F S1x1 .f32) (xs2 : Vec F S1x1 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = k0_pay3 (k0_pay1 (k0_pay8 x0 x1) xs1) (k0_pay2 (k0_pay9 x2 x3) xs2) (k0_pay10 (k0_pay7 x0 x1 x2 x3 x4 x5 x6) xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2, View.readCov_unit_zero (S := S1x1) _ hz2]

/-! ## The first point: each cell is zero plus this point's partial sum -/

/-- The first point leaves in the weighted squared error's accumulator the zero it has just stored plus the point's partial sum. -/
theorem first_0 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay10 (k0_pay7 x0 x1 x2 x3 x4 x5 x6) (k0_pay4 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- The first point leaves in the attenuation term's accumulator the zero it has just stored plus the point's partial sum. -/
theorem first_1 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay1 (k0_pay8 x0 x1) (k0_pay5 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

/-- The first point leaves in the radiation term's accumulator the zero it has just stored plus the point's partial sum. -/
theorem first_2 (c : Dev nD) (i : grid0.Coords) (arg1 : Memref sig .tc .vmem S4x4x408 .f32) (harg1 : arg1.IsWhole) (arg2 : Memref sig .tc .vmem S4x4x408 .f32) (harg2 : arg2.IsWhole) (arg3 : Memref sig .tc .vmem S4x4x64x408 .f32) (harg3 : arg3.IsWhole) (arg4 : Memref sig .tc .vmem S4x4x64x408 .f32) (harg4 : arg4.IsWhole) (arg5 : Memref sig .tc .vmem S4x4x64x408 .f32) (harg5 : arg5.IsWhole) (arg6 : Memref sig .tc .vmem S4x4x64x408 .f32) (harg6 : arg6.IsWhole) (arg7 : Memref sig .tc .vmem S408 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i) (x0 : Vec F S4x4x408 .f32) (x1 : Vec F S4x4x408 .f32) (x2 : Vec F S4x4x64x408 .f32) (x3 : Vec F S4x4x64x408 .f32) (x4 : Vec F S4x4x64x408 .f32) (x5 : Vec F S4x4x64x408 .f32) (x6 : Vec F S408 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 x4 x5 x6 = k0_pay2 (k0_pay9 x2 x3) (k0_pay6 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S4x4x408) hz3, View.ld_unit_zero (S := S4x4x64x408) hz4, View.ld_unit_zero (S := S408) hz1, View.ld_unit_zero (S := S1x1) hz2]

end Cert.KernelIdeal.Pieces

end
-- ==== Proof.LibSumForms.lean ====
/-
  Sums over the index set of an array.

  A sum-reduction of an array along some of its axes, summed again over all indices of its result, is the
  sum of the array over all of its indices: every index of the array drops to exactly one index of the
  result, so the result's indices cut the array's index set into disjoint fibres. A re-laid array (the same
  entries in row-major order under another shape) has the same sum, its indices being matched one to one
  with the array's. A sum over the index set of a rank-3 or rank-4 array is the iterated sum over the
  coordinates, and an array with a single entry sums to that entry.
-/
import Idealize.ShloMosaic.PureOps.Ideal.Laws
import Idealize.ShloMosaic.Lib.ValueIdx

noncomputable section

open scoped BigOperators

namespace Cert.LibSumForms

open Idealize.ShloMosaic Idealize.ShloMosaic.ValueIdx

/-! ## Reductions and re-laid arrays -/

/-- Summing a sum-reduction over the indices of its result gives the sum over the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ h.drop x

/-- The same for a kernel's add-reduction of a float vector, read on the extended reals. -/
theorem sum_multiReduction_add {s t : Shape} {φ : FTy} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same for an f32 add-reduction onto the zero word, its side condition spelt as a kernel's text spells it. -/
theorem sum_add_reduction_f32 {s t : Shape} {axes : List (Fin s.rank)} (src : FVec Ideal s .f32)
    (h : s.Reduces axes t) (hφ : FKind.Formats .f32) (hacc : (0x00000000#32 : BitVec 32) = 0x00000000#32) :
    ∑ j : t.Idx, multiReduction .add axes t src 0x00000000#32 h hφ hacc j = ∑ i : s.Idx, src i :=
  sum_reduceAdd h src

/-- A re-laid array has the sum of the array it re-lays. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-! ## Index sets as products of coordinate ranges -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- An array with one entry sums to that entry. -/
theorem sum_idx_1x1 {M : Type*} [AddCommMonoid M] (f : (⟨2, ![1, 1]⟩ : Shape).Idx → M) :
    ∑ i, f i = f (ix2 (0 : Fin 1) (0 : Fin 1)) := by
  rw [sum_idx2, Fin.sum_univ_one, Fin.sum_univ_one]

end Cert.LibSumForms

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.LossTerms.lean ====
/-
  The loss as sums of scalar terms.

  For complex attenuations a = a0 + i·a1, radiations r = r2 + i·r3 and targets t = t4 + i·t5 the loss is

      ∑ |a·r − t|² · w   +   c · ( (∑ relu(|a| − 1)²) / Na  +  (∑ relu(|r| − 10)²) / Nr ),

  the first and third sums over every batch row, user, antenna and subcarrier, the second over every batch
  row, user and subcarrier. The three sums are written here over a leading axis of any length n, so that
  the same definitions name the sums over the whole arrays (n = 128) and over a tile of 4 batch rows. Cutting
  the 128 batch rows into 32 tiles of 4 and adding the tiles' sums one after the other onto a zero start gives
  the sums over the whole arrays: addition of extended reals is commutative and associative, so no
  finiteness is used.
-/
import Idealize.ShloMosaic.PureOps.Ideal.Laws
import Idealize.ShloMosaic.Lib.ValueIdx
import proofs.«173876_j88373247082702_1_alg».proof.Proof.LibTiles

noncomputable section

open scoped BigOperators

namespace Cert.LossTerms

open Idealize.ShloMosaic Idealize.ShloMosaic.ValueIdx

/-! ## The scalar terms -/

/-- One entry's weighted squared error |a·r − t|² · w, real and imaginary parts written out. -/
def sqErr (a0 a1 r2 r3 t4 t5 w : EReal) : EReal :=
  (((a0 * r2 - a1 * r3) - t4) * ((a0 * r2 - a1 * r3) - t4)
    + ((a0 * r3 + a1 * r2) - t5) * ((a0 * r3 + a1 * r2) - t5)) * w

/-- The squared excess relu(|z| − b)² of the magnitude of z = x + i·y over a bound b. -/
def excessSq (b x y : EReal) : EReal :=
  max (Ideal.sqrt (x * x + y * y) - b) (Ideal.ofBits .f32 0x00000000#32)
    * max (Ideal.sqrt (x * x + y * y) - b) (Ideal.ofBits .f32 0x00000000#32)

/-- The attenuation's bound, 1. -/
abbrev boundA : EReal := Ideal.ofBits .f32 0x3F800000#32
/-- The radiation's bound, 10. -/
abbrev boundR : EReal := Ideal.ofBits .f32 0x41200000#32

/-! ## The three sums, over a leading axis of any length -/

variable {n : Nat}

/-- The weighted squared error summed over n batch rows, 4 users, 64 antennas and 408 subcarriers. -/
def recvSum (a0 a1 : (⟨3, ![n, 4, 408]⟩ : Shape).Idx → EReal)
    (r2 r3 t4 t5 : (⟨4, ![n, 4, 64, 408]⟩ : Shape).Idx → EReal) (w : (⟨1, ![408]⟩ : Shape).Idx → EReal) : EReal :=
  ∑ p : Fin n, ∑ q : Fin 4, ∑ r : Fin 64, ∑ s : Fin 408,
    sqErr (a0 (ix3 p q s)) (a1 (ix3 p q s)) (r2 (ix4 p q r s)) (r3 (ix4 p q r s)) (t4 (ix4 p q r s))
      (t5 (ix4 p q r s)) (w (ix1 s))

/-- The attenuation's squared excess over 1 summed over n batch rows, 4 users and 408 subcarriers. -/
def attenSum (a0 a1 : (⟨3, ![n, 4, 408]⟩ : Shape).Idx → EReal) : EReal :=
  ∑ p : Fin n, ∑ q : Fin 4, ∑ s : Fin 408, excessSq boundA (a0 (ix3 p q s)) (a1 (ix3 p q s))

/-- The radiation's squared excess over 10 summed over n batch rows, 4 users, 64 antennas and 408 subcarriers. -/
def radSum (r2 r3 : (⟨4, ![n, 4, 64, 408]⟩ : Shape).Idx → EReal) : EReal :=
  ∑ p : Fin n, ∑ q : Fin 4, ∑ r : Fin 64, ∑ s : Fin 408, excessSq boundR (r2 (ix4 p q r s)) (r3 (ix4 p q r s))

/-- The loss from its three sums: R + c · (S₁ / 208896 + S₂ / 13369344), the constants as the words both programs hold. -/
def combine (R S1 S2 : EReal) : EReal :=
  R + Ideal.ofBits .f32 0x3C23D70A#32
    * (Ideal.div S1 (Ideal.ofBits .f32 0x484C0000#32) + Ideal.div S2 (Ideal.ofBits .f32 0x4B4C0000#32))

/-! ## Tiles of four batch rows -/

/-- Tile t of an array with 128 batch rows and two more axes: rows 4t, …, 4t + 3. -/
def tile3 (A : (⟨3, ![128, 4, 408]⟩ : Shape).Idx → EReal) (t : Fin 32) : (⟨3, ![4, 4, 408]⟩ : Shape).Idx → EReal :=
  fun j => A (ix3 (⟨t.val * 4 + (j 0).val, Cert.LibTiles.tile_lt t (j 0)⟩ : Fin 128) (j 1) (j 2))

/-- Tile t of an array with 128 batch rows and three more axes. -/
def tile4 (A : (⟨4, ![128, 4, 64, 408]⟩ : Shape).Idx → EReal) (t : Fin 32) :
    (⟨4, ![4, 4, 64, 408]⟩ : Shape).Idx → EReal :=
  fun j => A (ix4 (⟨t.val * 4 + (j 0).val, Cert.LibTiles.tile_lt t (j 0)⟩ : Fin 128) (j 1) (j 2) (j 3))

/-- The weighted squared error over the whole arrays is the sum over the 32 tiles of the tiles' sums. -/
theorem recvSum_tiles (A0 A1 : (⟨3, ![128, 4, 408]⟩ : Shape).Idx → EReal)
    (A2 A3 A4 A5 : (⟨4, ![128, 4, 64, 408]⟩ : Shape).Idx → EReal) (W : (⟨1, ![408]⟩ : Shape).Idx → EReal) :
    ∑ t : Fin 32, recvSum (tile3 A0 t) (tile3 A1 t) (tile4 A2 t) (tile4 A3 t) (tile4 A4 t) (tile4 A5 t) W
      = recvSum A0 A1 A2 A3 A4 A5 W := by
  unfold recvSum
  exact (Cert.LibTiles.tile_sum 32 4 (fun p : Fin 128 => ∑ q : Fin 4, ∑ r : Fin 64, ∑ s : Fin 408,
    sqErr (A0 (ix3 p q s)) (A1 (ix3 p q s)) (A2 (ix4 p q r s)) (A3 (ix4 p q r s)) (A4 (ix4 p q r s))
      (A5 (ix4 p q r s)) (W (ix1 s)))).symm

/-- The attenuation term over the whole arrays is the sum over the 32 tiles of the tiles' sums. -/
theorem attenSum_tiles (A0 A1 : (⟨3, ![128, 4, 408]⟩ : Shape).Idx → EReal) :
    ∑ t : Fin 32, attenSum (tile3 A0 t) (tile3 A1 t) = attenSum A0 A1 := by
  unfold attenSum
  exact (Cert.LibTiles.tile_sum 32 4 (fun p : Fin 128 => ∑ q : Fin 4, ∑ s : Fin 408,
    excessSq boundA (A0 (ix3 p q s)) (A1 (ix3 p q s)))).symm

/-- The radiation term over the whole arrays is the sum over the 32 tiles of the tiles' sums. -/
theorem radSum_tiles (A2 A3 : (⟨4, ![128, 4, 64, 408]⟩ : Shape).Idx → EReal) :
    ∑ t : Fin 32, radSum (tile4 A2 t) (tile4 A3 t) = radSum A2 A3 := by
  unfold radSum
  exact (Cert.LibTiles.tile_sum 32 4 (fun p : Fin 128 => ∑ q : Fin 4, ∑ r : Fin 64, ∑ s : Fin 408,
    excessSq boundR (A2 (ix4 p q r s)) (A3 (ix4 p q r s)))).symm

/-! ## A sum kept in a cell over the grid points -/

/-- What a cell holds after point k when it is set to zero and given R 0 at point 0 and given R k more at each
    later point k. -/
def runSum (R : ℕ → EReal) : ℕ → EReal
  | 0 => Ideal.ofBits .f32 0x00000000#32 + R 0
  | k + 1 => runSum R k + R (k + 1)

/-- After point k the cell holds R 0 + … + R k. -/
theorem runSum_eq (R : ℕ → EReal) (k : ℕ) : runSum R k = ∑ t ∈ Finset.range (k + 1), R t := by
  induction k with
  | zero => rw [runSum, Ideal.ofBits_zero_f32, zero_add, Finset.sum_range_one]
  | succ k ih => rw [runSum, ih, Finset.sum_range_succ _ (k + 1)]

/-- After the last of 32 points the cell holds the sum over the 32 points. -/
theorem runSum_last (R : ℕ → EReal) (T : Fin 32 → EReal) (h : ∀ t : Fin 32, R t.val = T t) :
    runSum R 31 = ∑ t : Fin 32, T t := by
  rw [runSum_eq, Finset.sum_range]
  exact Finset.sum_congr rfl fun t _ => h t

end Cert.LossTerms

end
-- ==== Proof.PayloadValue.lean ====
/-
  The body's payloads read as values on the extended reals.

  A tile's partial sums are written by the body as chains of one-axis add-reductions and re-layings that end in
  a one-cell array; the cell of such a chain is the sum of the reduced array over all of its indices, since each
  reduction keeps the total and each re-laying keeps it too. The array under the first chain is, entry by entry,
  the weighted squared error of the tile's entries (the attenuation laid along the antenna axis, the weights
  laid along the three leading axes), under the other two the squared excess of the attenuation's and the
  radiation's magnitude. So each accumulator's new contents are its old contents plus the tile's sum, and the
  output cell is the loss's combination of the three accumulators.
-/
import proofs.«173876_j88373247082702_1_alg».proof.Proof.Gen.KernelIdeal.Skeleton
import proofs.«173876_j88373247082702_1_alg».proof.Proof.LibSumForms
import proofs.«173876_j88373247082702_1_alg».proof.Proof.LossTerms
import Idealize.ShloMosaic.Lib.Pipeline.Value

noncomputable section

open scoped BigOperators

open Idealize.ShloMosaic Idealize.ShloMosaic.ValueIdx

namespace Cert.KernelIdeal.PayloadValue

open Cert.KernelIdeal Cert.KernelIdeal.Gen Cert.LossTerms Cert.LibSumForms

/-- A one-cell array has the one index (0, 0). -/
theorem idx_1x1 (j : (⟨2, ![1, 1]⟩ : Shape).Idx) : j = ix2 (0 : Fin 1) (0 : Fin 1) := by
  funext d
  match d with
  | ⟨0, _⟩ => exact Fin.ext (by have := idx2_lt0 j; show (j 0).val = 0; omega)
  | ⟨1, _⟩ => exact Fin.ext (by have := idx2_lt1 j; show (j 1).val = 0; omega)

/-! ## The two broadcasts of the weighted squared error -/

/-- The attenuation block [4, 4, 408], given a unit antenna axis and laid along the 64 antennas, read at
    (a, q, r, s): the block at (a, q, s). -/
theorem atten_along_antennas {α : Type} (x : S4x4x408.Idx → α) (a q : Fin 4) (r : Fin 64) (s : Fin 408) :
    broadcastTo S4x4x64x408 (shapeCast S4x4x1x408 x shapeCasts_S4x4x408_S4x4x1x408)
      broadcasts_S4x4x1x408_S4x4x64x408 (ix4 a q r s) = x (ix3 a q s) := by
  refine (broadcastTo_apply _ broadcasts_S4x4x1x408_S4x4x64x408 (ix4 a q r s) (ix4 a q (0 : Fin 1) s) (fun d => ?_)).trans ?_
  · match d with
    | ⟨0, _⟩ => show a.val = if (4 : Nat) = 1 then 0 else a.val; rw [if_neg (by decide)]
    | ⟨1, _⟩ => show q.val = if (4 : Nat) = 1 then 0 else q.val; rw [if_neg (by decide)]
    | ⟨2, _⟩ => show 0 = if (1 : Nat) = 1 then 0 else r.val; rw [if_pos rfl]
    | ⟨3, _⟩ => show s.val = if (408 : Nat) = 1 then 0 else s.val; rw [if_neg (by decide)]
  · exact shapeCast_apply x shapeCasts_S4x4x408_S4x4x1x408 (ix4 a q (0 : Fin 1) s) (ix3 a q s) (by
      rw [Shape.rowMajor_val_three, Shape.rowMajor_val_four]
      show (a.val * 4 + q.val) * 408 + s.val = ((a.val * 4 + q.val) * 1 + 0) * 408 + s.val
      omega)

/-- The weights [408], given three unit leading axes and laid along batch rows, users and antennas, read at
    (a, q, r, s): the weight of subcarrier s. -/
theorem weights_along_rows {α : Type} (x : S408.Idx → α) (a q : Fin 4) (r : Fin 64) (s : Fin 408) :
    broadcastTo S4x4x64x408 (shapeCast S1x1x1x408 x shapeCasts_S408_S1x1x1x408)
      broadcasts_S1x1x1x408_S4x4x64x408 (ix4 a q r s) = x (ix1 s) := by
  refine (broadcastTo_apply _ broadcasts_S1x1x1x408_S4x4x64x408 (ix4 a q r s)
    (ix4 (0 : Fin 1) (0 : Fin 1) (0 : Fin 1) s) (fun d => ?_)).trans ?_
  · match d with
    | ⟨0, _⟩ => show 0 = if (1 : Nat) = 1 then 0 else a.val; rw [if_pos rfl]
    | ⟨1, _⟩ => show 0 = if (1 : Nat) = 1 then 0 else q.val; rw [if_pos rfl]
    | ⟨2, _⟩ => show 0 = if (1 : Nat) = 1 then 0 else r.val; rw [if_pos rfl]
    | ⟨3, _⟩ => show s.val = if (408 : Nat) = 1 then 0 else s.val; rw [if_neg (by decide)]
  · exact shapeCast_apply x shapeCasts_S408_S1x1x1x408 (ix4 (0 : Fin 1) (0 : Fin 1) (0 : Fin 1) s) (ix1 s) (by
      rw [Shape.rowMajor_val_one, Shape.rowMajor_val_four]
      show s.val = ((0 * 1 + 0) * 1 + 0) * 408 + s.val
      omega)

/-! ## The tile's three partial sums -/

/-- The array the body reduces first, summed over all its indices, is the tile's weighted squared error. -/
theorem sqErr_partial (x0 x1 : Vec Ideal S4x4x408 .f32) (x2 x3 x4 x5 : Vec Ideal S4x4x64x408 .f32)
    (x6 : Vec Ideal S408 .f32) :
    ∑ i : S4x64x408.Idx, k0_pay7 x0 x1 x2 x3 x4 x5 x6 i = recvSum x0 x1 x2 x3 x4 x5 x6 := by
  unfold k0_pay7
  dsimp only
  rw [sum_add_reduction_f32, sum_idx4]
  unfold recvSum
  refine Finset.sum_congr rfl fun a _ => Finset.sum_congr rfl fun q _ => Finset.sum_congr rfl fun r _ =>
    Finset.sum_congr rfl fun s _ => ?_
  simp only [mulf_apply, addf_apply, subf_apply, atten_along_antennas, weights_along_rows]
  rfl

/-- The weighted squared error's accumulator after the update: its contents before plus the array's total. -/
theorem sqErr_update (v30 : FVec Ideal S4x64x408 .f32) (acc : Vec Ideal S1x1 .f32) :
    k0_pay10 v30 acc = fun _ => acc (ix2 (0 : Fin 1) (0 : Fin 1)) + ∑ i : S4x64x408.Idx, v30 i := by
  funext j
  obtain rfl := idx_1x1 j
  unfold k0_pay10
  dsimp only
  rw [shapeCast_self]
  refine congrArg (acc (ix2 (0 : Fin 1) (0 : Fin 1)) + ·) ?_
  refine (sum_idx_1x1 _).symm.trans ?_
  rw [sum_shapeCast, sum_add_reduction_f32, sum_shapeCast, sum_add_reduction_f32, sum_add_reduction_f32]

/-- The attenuation term's partial sum of a tile, in its one cell. -/
theorem atten_partial (x0 x1 : Vec Ideal S4x4x408 .f32) :
    k0_pay8 x0 x1 = fun _ => attenSum x0 x1 := by
  funext j
  obtain rfl := idx_1x1 j
  unfold k0_pay8
  dsimp only
  refine (sum_idx_1x1 _).symm.trans ?_
  rw [sum_shapeCast, sum_add_reduction_f32, sum_shapeCast, sum_add_reduction_f32, sum_add_reduction_f32,
    sum_idx3]
  rfl

/-- The radiation term's partial sum of a tile, in its one cell. -/
theorem rad_partial (x2 x3 : Vec Ideal S4x4x64x408 .f32) :
    k0_pay9 x2 x3 = fun _ => radSum x2 x3 := by
  funext j
  obtain rfl := idx_1x1 j
  unfold k0_pay9
  dsimp only
  refine (sum_idx_1x1 _).symm.trans ?_
  rw [sum_shapeCast, sum_add_reduction_f32, sum_shapeCast, sum_add_reduction_f32, sum_add_reduction_f32,
    sum_add_reduction_f32, sum_idx4]
  rfl

/-! ## One point's update of each accumulator, and the output cell -/

/-- After a point the weighted squared error's accumulator holds what it held plus the tile's sum. -/
theorem recv_step (x0 x1 : Vec Ideal S4x4x408 .f32) (x2 x3 x4 x5 : Vec Ideal S4x4x64x408 .f32)
    (x6 : Vec Ideal S408 .f32) (acc : Vec Ideal S1x1 .f32) :
    k0_pay10 (k0_pay7 x0 x1 x2 x3 x4 x5 x6) acc
      = fun _ => acc (ix2 (0 : Fin 1) (0 : Fin 1)) + recvSum x0 x1 x2 x3 x4 x5 x6 := by
  rw [sqErr_update, sqErr_partial]

/-- After a point the attenuation term's accumulator holds what it held plus the tile's sum. -/
theorem atten_step (x0 x1 : Vec Ideal S4x4x408 .f32) (acc : Vec Ideal S1x1 .f32) :
    k0_pay1 (k0_pay8 x0 x1) acc = fun _ => acc (ix2 (0 : Fin 1) (0 : Fin 1)) + attenSum x0 x1 := by
  rw [atten_partial]
  funext j
  obtain rfl := idx_1x1 j
  unfold k0_pay1
  rw [shapeCast_self]
  rfl

/-- After a point the radiation term's accumulator holds what it held plus the tile's sum. -/
theorem rad_step (x2 x3 : Vec Ideal S4x4x64x408 .f32) (acc : Vec Ideal S1x1 .f32) :
    k0_pay2 (k0_pay9 x2 x3) acc = fun _ => acc (ix2 (0 : Fin 1) (0 : Fin 1)) + radSum x2 x3 := by
  rw [rad_partial]
  funext j
  obtain rfl := idx_1x1 j
  unfold k0_pay2
  rw [shapeCast_self]
  rfl

/-- The zero the first point stores into each accumulator. -/
theorem zero_cell_0 : (k0_pay4 (F := Ideal)) = fun _ => Ideal.ofBits .f32 0x00000000#32 := by
  unfold k0_pay4; dsimp only; rw [shapeCast_self]; rfl
theorem zero_cell_1 : (k0_pay5 (F := Ideal)) = fun _ => Ideal.ofBits .f32 0x00000000#32 := by
  unfold k0_pay5; dsimp only; rw [shapeCast_self]; rfl
theorem zero_cell_2 : (k0_pay6 (F := Ideal)) = fun _ => Ideal.ofBits .f32 0x00000000#32 := by
  unfold k0_pay6; dsimp only; rw [shapeCast_self]; rfl

/-- The output cell: the loss's combination of the three accumulators' cells. -/
theorem output_cell (s1 s2 r : Vec Ideal S1x1 .f32) :
    k0_pay3 s1 s2 r = fun _ => combine (r (ix2 (0 : Fin 1) (0 : Fin 1))) (s1 (ix2 (0 : Fin 1) (0 : Fin 1)))
      (s2 (ix2 (0 : Fin 1) (0 : Fin 1))) := by
  funext j
  obtain rfl := idx_1x1 j
  rfl

end Cert.KernelIdeal.PayloadValue

end
-- ==== Proof.RunValue.lean ====
/-
  What the kernel's run leaves in the result: the loss of the argument arrays.

  The grid has 32 points; point t stages batch rows 4t, …, 4t + 3 of the six big arrays and the whole weight
  vector. The three accumulator cells hold, after point k, the sums over tiles 0, …, k of the tiles' weighted
  squared error, attenuation term and radiation term (by induction on the point: the first point starts each
  cell from zero, every later point adds to what the point before left). The last point writes the output cell
  from the three cells, the pipeline writes that cell back as the whole one-cell result array, and the host
  re-lays it as a scalar. Summing the tiles' sums over the 32 tiles gives the sums over the whole arrays.
-/
import proofs.«173876_j88373247082702_1_alg».proof.Proof.Gen.KernelIdeal.Frame
import proofs.«173876_j88373247082702_1_alg».proof.Proof.Pieces
import proofs.«173876_j88373247082702_1_alg».proof.Proof.PayloadValue
import proofs.«173876_j88373247082702_1_alg».proof.Proof.LossTerms
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.LossTerms

variable (m : (ℓ : Loc nD τ sig) → Buf (Elt Ideal) ℓ) (ρ : Dev nD → PrngReg)

/-! ## The arrays and their blocks, by their literal types -/

/-- The attenuation's real part, as the region finds it. -/
abbrev arr0 (c : Dev nD) : Vec Ideal S128x4x408 .f32 := V m c main_arg0
/-- Its block at point t. -/
abbrev blk0 (c : Dev nD) (t : Fin cfg0.N) : Vec Ideal S4x4x408 .f32 := iblk m c 0 t

/-- The attenuation's imaginary part, as the region finds it. -/
abbrev arr1 (c : Dev nD) : Vec Ideal S128x4x408 .f32 := V m c main_arg1
/-- Its block at point t. -/
abbrev blk1 (c : Dev nD) (t : Fin cfg0.N) : Vec Ideal S4x4x408 .f32 := iblk m c 1 t

/-- The radiation's real part, as the region finds it. -/
abbrev arr2 (c : Dev nD) : Vec Ideal S128x4x64x408 .f32 := V m c main_arg2
/-- Its block at point t. -/
abbrev blk2 (c : Dev nD) (t : Fin cfg0.N) : Vec Ideal S4x4x64x408 .f32 := iblk m c 2 t

/-- The radiation's imaginary part, as the region finds it. -/
abbrev arr3 (c : Dev nD) : Vec Ideal S128x4x64x408 .f32 := V m c main_arg3
/-- Its block at point t. -/
abbrev blk3 (c : Dev nD) (t : Fin cfg0.N) : Vec Ideal S4x4x64x408 .f32 := iblk m c 3 t

/-- The target's real part, as the region finds it. -/
abbrev arr4 (c : Dev nD) : Vec Ideal S128x4x64x408 .f32 := V m c main_arg4
/-- Its block at point t. -/
abbrev blk4 (c : Dev nD) (t : Fin cfg0.N) : Vec Ideal S4x4x64x408 .f32 := iblk m c 4 t

/-- The target's imaginary part, as the region finds it. -/
abbrev arr5 (c : Dev nD) : Vec Ideal S128x4x64x408 .f32 := V m c main_arg5
/-- Its block at point t. -/
abbrev blk5 (c : Dev nD) (t : Fin cfg0.N) : Vec Ideal S4x4x64x408 .f32 := iblk m c 5 t

/-- The subcarrier weights, as the region finds it. -/
abbrev arr6 (c : Dev nD) : Vec Ideal S408 .f32 := V m c main_arg6
/-- Its block at point t. -/
abbrev blk6 (c : Dev nD) (t : Fin cfg0.N) : Vec Ideal S408 .f32 := iblk m c 6 t

/-- A grid point as a number below 32. -/
def pt (t : Fin cfg0.N) : Fin 32 := ⟨t.val, lt_of_lt_of_eq t.isLt (show cfg0.N = 32 from N_0)⟩

/-! ## Each window's block is a tile of its array

A block's coordinate in the array is the block index times the block's extent plus the coordinate inside the
block; the six big windows' index maps send point t to block (t, 0, …), the weights' to block 0. -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The block of the attenuation's real part at point t is tile t of the array. -/
theorem blk0_eq (c : Dev nD) (t : Fin cfg0.N) : blk0 m c t = tile3 (arr0 m c) (pt t) := by
  funext j
  unfold tile3
  show iblk m c 0 t j = V m c main_arg0 _
  unfold iblk
  rw [View.read_apply]
  show V m c main_arg0 _ = V m c main_arg0 _
  congr 1
  funext a
  apply Fin.ext
  match a with
  | ⟨0, _⟩ => show win0_0.index t 0 * 4 + 1 * (j 0).val = t.val * 4 + (j 0).val; rw [(idx0 t).1]; omega
  | ⟨1, _⟩ => show win0_0.index t 1 * 4 + 1 * (j 1).val = (j 1).val; rw [(idx0 t).2.1]; omega
  | ⟨2, _⟩ => show win0_0.index t 2 * 408 + 1 * (j 2).val = (j 2).val; rw [(idx0 t).2.2]; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The block of the attenuation's imaginary part at point t is tile t of the array. -/
theorem blk1_eq (c : Dev nD) (t : Fin cfg0.N) : blk1 m c t = tile3 (arr1 m c) (pt t) := by
  funext j
  unfold tile3
  show iblk m c 1 t j = V m c main_arg1 _
  unfold iblk
  rw [View.read_apply]
  show V m c main_arg1 _ = V m c main_arg1 _
  congr 1
  funext a
  apply Fin.ext
  match a with
  | ⟨0, _⟩ => show win0_1.index t 0 * 4 + 1 * (j 0).val = t.val * 4 + (j 0).val; rw [(idx1 t).1]; omega
  | ⟨1, _⟩ => show win0_1.index t 1 * 4 + 1 * (j 1).val = (j 1).val; rw [(idx1 t).2.1]; omega
  | ⟨2, _⟩ => show win0_1.index t 2 * 408 + 1 * (j 2).val = (j 2).val; rw [(idx1 t).2.2]; omega

theorem idx2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The block of the radiation's real part at point t is tile t of the array. -/
theorem blk2_eq (c : Dev nD) (t : Fin cfg0.N) : blk2 m c t = tile4 (arr2 m c) (pt t) := by
  funext j
  unfold tile4
  show iblk m c 2 t j = V m c main_arg2 _
  unfold iblk
  rw [View.read_apply]
  show V m c main_arg2 _ = V m c main_arg2 _
  congr 1
  funext a
  apply Fin.ext
  match a with
  | ⟨0, _⟩ => show win0_2.index t 0 * 4 + 1 * (j 0).val = t.val * 4 + (j 0).val; rw [(idx2 t).1]; omega
  | ⟨1, _⟩ => show win0_2.index t 1 * 4 + 1 * (j 1).val = (j 1).val; rw [(idx2 t).2.1]; omega
  | ⟨2, _⟩ => show win0_2.index t 2 * 64 + 1 * (j 2).val = (j 2).val; rw [(idx2 t).2.2.1]; omega
  | ⟨3, _⟩ => show win0_2.index t 3 * 408 + 1 * (j 3).val = (j 3).val; rw [(idx2 t).2.2.2]; omega

theorem idx3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The block of the radiation's imaginary part at point t is tile t of the array. -/
theorem blk3_eq (c : Dev nD) (t : Fin cfg0.N) : blk3 m c t = tile4 (arr3 m c) (pt t) := by
  funext j
  unfold tile4
  show iblk m c 3 t j = V m c main_arg3 _
  unfold iblk
  rw [View.read_apply]
  show V m c main_arg3 _ = V m c main_arg3 _
  congr 1
  funext a
  apply Fin.ext
  match a with
  | ⟨0, _⟩ => show win0_3.index t 0 * 4 + 1 * (j 0).val = t.val * 4 + (j 0).val; rw [(idx3 t).1]; omega
  | ⟨1, _⟩ => show win0_3.index t 1 * 4 + 1 * (j 1).val = (j 1).val; rw [(idx3 t).2.1]; omega
  | ⟨2, _⟩ => show win0_3.index t 2 * 64 + 1 * (j 2).val = (j 2).val; rw [(idx3 t).2.2.1]; omega
  | ⟨3, _⟩ => show win0_3.index t 3 * 408 + 1 * (j 3).val = (j 3).val; rw [(idx3 t).2.2.2]; omega

theorem idx4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- The block of the target's real part at point t is tile t of the array. -/
theorem blk4_eq (c : Dev nD) (t : Fin cfg0.N) : blk4 m c t = tile4 (arr4 m c) (pt t) := by
  funext j
  unfold tile4
  show iblk m c 4 t j = V m c main_arg4 _
  unfold iblk
  rw [View.read_apply]
  show V m c main_arg4 _ = V m c main_arg4 _
  congr 1
  funext a
  apply Fin.ext
  match a with
  | ⟨0, _⟩ => show win0_4.index t 0 * 4 + 1 * (j 0).val = t.val * 4 + (j 0).val; rw [(idx4 t).1]; omega
  | ⟨1, _⟩ => show win0_4.index t 1 * 4 + 1 * (j 1).val = (j 1).val; rw [(idx4 t).2.1]; omega
  | ⟨2, _⟩ => show win0_4.index t 2 * 64 + 1 * (j 2).val = (j 2).val; rw [(idx4 t).2.2.1]; omega
  | ⟨3, _⟩ => show win0_4.index t 3 * 408 + 1 * (j 3).val = (j 3).val; rw [(idx4 t).2.2.2]; omega

theorem idx5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)

/-- The block of the target's imaginary part at point t is tile t of the array. -/
theorem blk5_eq (c : Dev nD) (t : Fin cfg0.N) : blk5 m c t = tile4 (arr5 m c) (pt t) := by
  funext j
  unfold tile4
  show iblk m c 5 t j = V m c main_arg5 _
  unfold iblk
  rw [View.read_apply]
  show V m c main_arg5 _ = V m c main_arg5 _
  congr 1
  funext a
  apply Fin.ext
  match a with
  | ⟨0, _⟩ => show win0_5.index t 0 * 4 + 1 * (j 0).val = t.val * 4 + (j 0).val; rw [(idx5 t).1]; omega
  | ⟨1, _⟩ => show win0_5.index t 1 * 4 + 1 * (j 1).val = (j 1).val; rw [(idx5 t).2.1]; omega
  | ⟨2, _⟩ => show win0_5.index t 2 * 64 + 1 * (j 2).val = (j 2).val; rw [(idx5 t).2.2.1]; omega
  | ⟨3, _⟩ => show win0_5.index t 3 * 408 + 1 * (j 3).val = (j 3).val; rw [(idx5 t).2.2.2]; omega

theorem idx6 : ∀ t : Fin cfg0.N, win0_6.index t (0 : Fin 1) = 0 :=
  (by decide +kernel : ∀ t : Fin grid0.N, _)

/-- The block of the subcarrier weights at point t is the whole vector. -/
theorem blk6_eq (c : Dev nD) (t : Fin cfg0.N) : blk6 m c t = arr6 m c := by
  funext j

  show iblk m c 6 t j = V m c main_arg6 _
  unfold iblk
  rw [View.read_apply]
  show V m c main_arg6 _ = V m c main_arg6 _
  congr 1
  funext a
  apply Fin.ext
  match a with
  | ⟨0, _⟩ => show win0_6.index t 0 * 408 + 1 * (j 0).val = (j 0).val; rw [idx6 t]; omega

/-! ## One point's effect on the three accumulator cells, case by case -/

/-- What the point before t left in the output's buffer and the three cells. -/
abbrev prev (c : Dev nD) (t : Fin cfg0.N) : Vec Ideal S1x1 .f32 × Vec Ideal S1x1 .f32 × Vec Ideal S1x1 .f32 × Vec Ideal S1x1 .f32 :=
  outsAt0 m c (t.val - 1) (Nat.lt_of_le_of_lt (Nat.sub_le _ _) t.isLt)

/-- The first point: each cell is the point's partial sum added to the zero just stored. -/
theorem step_first (c : Dev nD) (t : Fin cfg0.N) (h0 : t.val % 32 = 0) (h1 : ¬t.val % 32 = 31) :
    (outsAt0 m c t.val t.isLt).2.1 = k0_pay10 (k0_pay7 (blk0 m c t) (blk1 m c t) (blk2 m c t) (blk3 m c t) (blk4 m c t) (blk5 m c t) (blk6 m c t)) (k0_pay4 (F := Ideal))
    ∧ (outsAt0 m c t.val t.isLt).2.2.1 = k0_pay1 (k0_pay8 (blk0 m c t) (blk1 m c t)) (k0_pay5 (F := Ideal))
    ∧ (outsAt0 m c t.val t.isLt).2.2.2 = k0_pay2 (k0_pay9 (blk2 m c t) (blk3 m c t)) (k0_pay6 (F := Ideal)) := by
  rw [outsAt0_A m c t h0 h1]
  dsimp only
  exact ⟨Pieces.first_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t) (blk4 m c t) (blk5 m c t) (blk6 m c t),
    Pieces.first_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t) (blk4 m c t) (blk5 m c t) (blk6 m c t),
    Pieces.first_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t) (blk4 m c t) (blk5 m c t) (blk6 m c t)⟩

/-- A middle point: each cell is the point's partial sum added to what the point before left. -/
theorem step_mid (c : Dev nD) (t : Fin cfg0.N) (h0 : ¬t.val % 32 = 0) (h1 : ¬t.val % 32 = 31) :
    (outsAt0 m c t.val t.isLt).2.1 = k0_pay10 (k0_pay7 (blk0 m c t) (blk1 m c t) (blk2 m c t) (blk3 m c t) (blk4 m c t) (blk5 m c t) (blk6 m c t)) (prev m c t).2.1
    ∧ (outsAt0 m c t.val t.isLt).2.2.1 = k0_pay1 (k0_pay8 (blk0 m c t) (blk1 m c t)) (prev m c t).2.2.1
    ∧ (outsAt0 m c t.val t.isLt).2.2.2 = k0_pay2 (k0_pay9 (blk2 m c t) (blk3 m c t)) (prev m c t).2.2.2 := by
  rw [outsAt0_B m c t h0 h1]
  dsimp only
  exact ⟨Pieces.mid_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (prev m c t).2.1 (prev m c t).2.2.1 (prev m c t).2.2.2,
    Pieces.mid_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (prev m c t).2.1 (prev m c t).2.2.1 (prev m c t).2.2.2,
    Pieces.mid_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (blk4 m c t) (blk5 m c t) (blk6 m c t) (prev m c t).2.1 (prev m c t).2.2.1 (prev m c t).2.2.2⟩

/-- The last point: the cells as at a middle point, and the output cell from the three cells just updated. -/
theorem step_last (c : Dev nD) (t : Fin cfg0.N) (h0 : ¬t.val % 32 = 0) (h1 : t.val % 32 = 31) :
    (outsAt0 m c t.val t.isLt).1 = k0_pay3 (outsAt0 m c t.val t.isLt).2.2.1 (outsAt0 m c t.val t.isLt).2.2.2 (outsAt0 m c t.val t.isLt).2.1
    ∧ (outsAt0 m c t.val t.isLt).2.1 = k0_pay10 (k0_pay7 (blk0 m c t) (blk1 m c t) (blk2 m c t) (blk3 m c t) (blk4 m c t) (blk5 m c t) (blk6 m c t)) (prev m c t).2.1
    ∧ (outsAt0 m c t.val t.isLt).2.2.1 = k0_pay1 (k0_pay8 (blk0 m c t) (blk1 m c t)) (prev m c t).2.2.1
    ∧ (outsAt0 m c t.val t.isLt).2.2.2 = k0_pay2 (k0_pay9 (blk2 m c t) (blk3 m c t)) (prev m c t).2.2.2 := by
  rw [outsAt0_C m c t h0 h1]
  dsimp only
  have e0 := Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (blk4 m c t) (blk5 m c t) (blk6 m c t) (prev m c t).2.1 (prev m c t).2.2.1 (prev m c t).2.2.2
  have e1 := Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (blk4 m c t) (blk5 m c t) (blk6 m c t) (prev m c t).2.1 (prev m c t).2.2.1 (prev m c t).2.2.2
  have e2 := Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (blk4 m c t) (blk5 m c t) (blk6 m c t) (prev m c t).2.1 (prev m c t).2.2.1 (prev m c t).2.2.2
  refine ⟨?_, e0, e1, e2⟩
  rw [e0, e1, e2]
  exact Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (blk4 m c t) (blk5 m c t) (blk6 m c t) (prev m c t).2.1 (prev m c t).2.2.1 (prev m c t).2.2.2

/-! ## The cells after each point: running sums of the tiles' sums -/

/-- Tile k's weighted squared error (zero past the grid). -/
def recvAt (c : Dev nD) : ℕ → EReal := fun k =>
  if h : k < cfg0.N then recvSum (blk0 m c ⟨k, h⟩) (blk1 m c ⟨k, h⟩) (blk2 m c ⟨k, h⟩) (blk3 m c ⟨k, h⟩) (blk4 m c ⟨k, h⟩) (blk5 m c ⟨k, h⟩) (blk6 m c ⟨k, h⟩) else 0
/-- Tile k's attenuation term (zero past the grid). -/
def attenAt (c : Dev nD) : ℕ → EReal := fun k =>
  if h : k < cfg0.N then attenSum (blk0 m c ⟨k, h⟩) (blk1 m c ⟨k, h⟩) else 0
/-- Tile k's radiation term (zero past the grid). -/
def radAt (c : Dev nD) : ℕ → EReal := fun k =>
  if h : k < cfg0.N then radSum (blk2 m c ⟨k, h⟩) (blk3 m c ⟨k, h⟩) else 0

/-- After point k the three cells hold the running sums of tiles 0, …, k: by induction on the point. -/
theorem cells (c : Dev nD) : ∀ (k : ℕ) (h : k < cfg0.N),
    (outsAt0 m c k h).2.1 = (fun _ => runSum (recvAt m c) k)
    ∧ (outsAt0 m c k h).2.2.1 = (fun _ => runSum (attenAt m c) k)
    ∧ (outsAt0 m c k h).2.2.2 = (fun _ => runSum (radAt m c) k)
  | 0, h => by
    obtain ⟨e0, e1, e2⟩ := step_first m c ⟨0, h⟩ rfl (by dsimp only; omega)
    refine ⟨e0.trans ?_, e1.trans ?_, e2.trans ?_⟩
    · rw [PayloadValue.recv_step, PayloadValue.zero_cell_0]; funext _; simp only [runSum, recvAt, dif_pos h]
    · rw [PayloadValue.atten_step, PayloadValue.zero_cell_1]; funext _; simp only [runSum, attenAt, dif_pos h]
    · rw [PayloadValue.rad_step, PayloadValue.zero_cell_2]; funext _; simp only [runSum, radAt, dif_pos h]
  | k + 1, h => by
    have hN : cfg0.N = 32 := N_0
    obtain ⟨i0, i1, i2⟩ := cells c k (Nat.lt_of_succ_lt h)
    have hne : ¬(⟨k + 1, h⟩ : Fin cfg0.N).val % 32 = 0 := by dsimp only; omega
    have st : (outsAt0 m c (k + 1) h).2.1 = k0_pay10 (k0_pay7 (blk0 m c ⟨k + 1, h⟩) (blk1 m c ⟨k + 1, h⟩) (blk2 m c ⟨k + 1, h⟩) (blk3 m c ⟨k + 1, h⟩) (blk4 m c ⟨k + 1, h⟩) (blk5 m c ⟨k + 1, h⟩) (blk6 m c ⟨k + 1, h⟩)) (outsAt0 m c k (Nat.lt_of_succ_lt h)).2.1
        ∧ (outsAt0 m c (k + 1) h).2.2.1 = k0_pay1 (k0_pay8 (blk0 m c ⟨k + 1, h⟩) (blk1 m c ⟨k + 1, h⟩)) (outsAt0 m c k (Nat.lt_of_succ_lt h)).2.2.1
        ∧ (outsAt0 m c (k + 1) h).2.2.2 = k0_pay2 (k0_pay9 (blk2 m c ⟨k + 1, h⟩) (blk3 m c ⟨k + 1, h⟩)) (outsAt0 m c k (Nat.lt_of_succ_lt h)).2.2.2 := by
      by_cases h1 : (⟨k + 1, h⟩ : Fin cfg0.N).val % 32 = 31
      · exact (step_last m c ⟨k + 1, h⟩ hne h1).2
      · exact step_mid m c ⟨k + 1, h⟩ hne h1
    obtain ⟨e0, e1, e2⟩ := st
    refine ⟨e0.trans ?_, e1.trans ?_, e2.trans ?_⟩
    · rw [PayloadValue.recv_step, i0]; funext _; simp only [runSum, recvAt, dif_pos h]
    · rw [PayloadValue.atten_step, i1]; funext _; simp only [runSum, attenAt, dif_pos h]
    · rw [PayloadValue.rad_step, i2]; funext _; simp only [runSum, radAt, dif_pos h]

/-! ## The sums over the 32 tiles are the sums over the whole arrays -/

theorem recv_total (c : Dev nD) : runSum (recvAt m c) 31 = recvSum (arr0 m c) (arr1 m c) (arr2 m c) (arr3 m c) (arr4 m c) (arr5 m c) (arr6 m c) := by
  rw [runSum_last (recvAt m c) (fun t => recvSum (tile3 (arr0 m c) t) (tile3 (arr1 m c) t) (tile4 (arr2 m c) t)
    (tile4 (arr3 m c) t) (tile4 (arr4 m c) t) (tile4 (arr5 m c) t) (arr6 m c)) (fun t => ?_), recvSum_tiles]
  have ht : t.val < cfg0.N := lt_of_lt_of_eq t.isLt (show cfg0.N = 32 from N_0).symm
  unfold recvAt
  rw [dif_pos ht, blk0_eq, blk1_eq, blk2_eq, blk3_eq, blk4_eq, blk5_eq, blk6_eq]
  rfl

theorem atten_total (c : Dev nD) : runSum (attenAt m c) 31 = attenSum (arr0 m c) (arr1 m c) := by
  rw [runSum_last (attenAt m c) (fun t => attenSum (tile3 (arr0 m c) t) (tile3 (arr1 m c) t)) (fun t => ?_), attenSum_tiles]
  have ht : t.val < cfg0.N := lt_of_lt_of_eq t.isLt (show cfg0.N = 32 from N_0).symm
  unfold attenAt
  rw [dif_pos ht, blk0_eq, blk1_eq]
  rfl

theorem rad_total (c : Dev nD) : runSum (radAt m c) 31 = radSum (arr2 m c) (arr3 m c) := by
  rw [runSum_last (radAt m c) (fun t => radSum (tile4 (arr2 m c) t) (tile4 (arr3 m c) t)) (fun t => ?_), radSum_tiles]
  have ht : t.val < cfg0.N := lt_of_lt_of_eq t.isLt (show cfg0.N = 32 from N_0).symm
  unfold radAt
  rw [dif_pos ht, blk2_eq, blk3_eq]
  rfl

/-! ## The result array and the scalar the host re-lays it as -/

/-- The loss of the arrays as the region finds them. -/
def lossOf (c : Dev nD) : EReal :=
  combine (recvSum (arr0 m c) (arr1 m c) (arr2 m c) (arr3 m c) (arr4 m c) (arr5 m c) (arr6 m c)) (attenSum (arr0 m c) (arr1 m c)) (radSum (arr2 m c) (arr3 m c))

/-- The one-cell result array: the loss. -/
abbrev result (c : Dev nD) : Buf (Elt Ideal) ((c : Thread nD τ).loc main_v0) := fun _ => lossOf m c

/-- The last point. -/
def lastPt : Fin cfg0.N := ⟨31, by rw [show cfg0.N = 32 from N_0]; decide⟩

/-- After the last point the output's staging buffer holds the loss. -/
theorem out_last (c : Dev nD) : (outsAt0 m c lastPt.val lastPt.isLt).1 = result m c := by
  obtain ⟨i0, i1, i2⟩ := cells m c lastPt.val lastPt.isLt
  rw [(step_last m c lastPt (by decide) rfl).1, i0, i1, i2, PayloadValue.output_cell]
  show (fun _ => combine (runSum (recvAt m c) 31) (runSum (attenAt m c) 31) (runSum (radAt m c) 31)) = _
  rw [recv_total, atten_total, rad_total]
  rfl

/-- The one write-back, at the last point, writes the loss: block (0, 0) of the one-cell array is the array. -/
theorem flushed_eq (c : Dev nD) (t : Fin cfg0.N) (hf : (cfg0.win 7).flush t = true) :
    (dats m 0 c).flushed 7 t = ((cfg0.win 7).blk t).view.read (Elt Ideal) (result m c) := by
  have hN : cfg0.N = 32 := N_0
  have h31 : t.val = 31 := by have := (flush0_7 t).mp hf; have := t.isLt; omega
  obtain rfl : t = lastPt := Fin.ext h31
  show (cfg0.win 7).cut (grid0.coords lastPt) ((dats m 0 c).after 7 lastPt) = _
  rw [after0_7, out_last]
  have hz' : (fun a => win0_7.index lastPt a * main_v0.ty.shape.size a) = fun _ => 0 := funext fun a => by fin_cases a <;> decide +kernel
  exact (Memref.read_access_unit_zero (Elt Ideal) main_v0 hz' (fun a => by rw [congrFun hz' a]; simp) (result m c)).symm

/-- So the result array ends holding the loss: the last point's block covers it. -/
theorem final_o (c : Dev nD) : (dats m 0 c).arrAt 7 cfg0.N = result m c :=
  (dats m 0 c).arrAt_eq_of_cover 7 (result m c) (flushed_eq m c) fun i =>
    ⟨lastPt, (flush0_7 lastPt).mpr rfl, by
      show i ∈ ((View.whole main_v0).slice (win0_7.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_7.index lastPt 0 * win0_7.size 0 ≤ (i 0 : Nat) ∧ (i 0 : Nat) < win0_7.index lastPt 0 * win0_7.size 0 + win0_7.xsize (grid0.coords lastPt) 0
                  rw [show win0_7.index lastPt 0 * win0_7.size 0 = 0 from by decide +kernel, show win0_7.xsize (grid0.coords lastPt) 0 = 1 from by decide +kernel]; omega
      | ⟨1, _⟩ => show win0_7.index lastPt 1 * win0_7.size 1 ≤ (i 1 : Nat) ∧ (i 1 : Nat) < win0_7.index lastPt 1 * win0_7.size 1 + win0_7.xsize (grid0.coords lastPt) 1
                  rw [show win0_7.index lastPt 1 * win0_7.size 1 = 0 from by decide +kernel, show win0_7.xsize (grid0.coords lastPt) 1 = 1 from by decide +kernel]; omega⟩

/-- The host re-lays the one-cell result as a scalar: the loss. -/
theorem tail_v1 (c : Dev nD) :
    Pipeline.afterTail₀ cfgs (dats m) 0 (V0 m) [hostOps1] c main_v1 = fun _ => lossOf m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c (V0 m c) (fun w => (dats m 0 c).arrAt w cfg0.N) 7).trans (final_o m c)
  rw [e]
  rfl

/-! ## The run -/

/-- Every weakly fair execution of the kernel's program terminates with the scalar result at the loss of the
    argument arrays and the arguments unchanged. -/
theorem run : θ_run defs (onTc (τ := τ) (main (F := Ideal))) ⟨m, fun _ => 0, ρ⟩ (fun r => ∀ c : Dev nD,
      r.2.mem ((c.tc : Thread nD τ).loc main_v1) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v1 (Pipeline.mem_restRefs_of main_v1 (by decide) (by decide))).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.RunValue

end
-- ==== Proof.RefValue.lean ====
/-
  The reference's result is the loss of its arguments.

  The reference lays the attenuation along the antenna axis and the weights along the three leading axes,
  forms the weighted squared error and the two squared excesses entry by entry, and sums each over every index
  from a zero start; its last four operations combine the three sums. Read at an index (p, q, r, s) the laid-out
  attenuation is the attenuation at (p, q, s) and the laid-out weights the weight at s, so each summand is the
  scalar term of the loss, and a sum over all indices of a rank-3 or rank-4 array is the iterated sum over the
  coordinates.
-/
import proofs.«173876_j88373247082702_1_alg».proof.Proof.Gen.ReferenceIdeal.Read
import proofs.«173876_j88373247082702_1_alg».proof.Proof.LibSumForms
import proofs.«173876_j88373247082702_1_alg».proof.Proof.LossTerms

noncomputable section

open scoped BigOperators

open Idealize.ShloMosaic Idealize.ShloMosaic.ValueIdx

namespace Cert.ReferenceIdeal.RefValue

open Cert.ReferenceIdeal Cert.ReferenceIdeal.Gen Cert.ReferenceIdeal.Read Cert.LossTerms Cert.LibSumForms

/-! ## The composed index maps, at coordinates -/

/-- The attenuation's real part under its two broadcasts, read at (p, q, r, s), is read at (p, q, s). -/
theorem idx_a0 (p : Fin 128) (q : Fin 4) (r : Fin 64) (s : Fin 408) :
    idx_main_v0 (idx_main_v2 (ix4 p q r s)) = ix3 p q s :=
  funext fun a => Fin.ext (by match a with | ⟨0, _⟩ => rfl | ⟨1, _⟩ => rfl | ⟨2, _⟩ => rfl)
/-- The same for the attenuation's imaginary part. -/
theorem idx_a1 (p : Fin 128) (q : Fin 4) (r : Fin 64) (s : Fin 408) :
    idx_main_v1 (idx_main_v4 (ix4 p q r s)) = ix3 p q s :=
  funext fun a => Fin.ext (by match a with | ⟨0, _⟩ => rfl | ⟨1, _⟩ => rfl | ⟨2, _⟩ => rfl)
/-- The weights under their two broadcasts, read at (p, q, r, s), are read at s. -/
theorem idx_w (p : Fin 128) (q : Fin 4) (r : Fin 64) (s : Fin 408) :
    idx_main_v17 (idx_main_v18 (ix4 p q r s)) = ix1 s :=
  funext fun a => Fin.ext (by match a with | ⟨0, _⟩ => rfl)

/-! ## The three sums -/

/-- The reference's weighted squared error, summed over every index, is the loss's first sum. -/
theorem recv_sum (x0 x1 : (⟨S128x4x408, .f32⟩ : BufTy).Contents (Elt Ideal)) (x2 x3 x4 x5 : (⟨S128x4x64x408, .f32⟩ : BufTy).Contents (Elt Ideal)) (x6 : (⟨S408, .f32⟩ : BufTy).Contents (Elt Ideal)) :
    ∑ j : S128x4x64x408.Idx, val_main_v19 (F := Ideal) x0 x1 x2 x3 x4 x5 x6 j = recvSum x0 x1 x2 x3 x4 x5 x6 := by
  rw [sum_idx4]
  unfold recvSum
  refine Finset.sum_congr rfl fun p _ => Finset.sum_congr rfl fun q _ => Finset.sum_congr rfl fun r _ =>
    Finset.sum_congr rfl fun s _ => ?_
  rw [val_main_v19_apply, val_main_v16_apply, val_main_v13_apply, val_main_v15_apply, val_main_v12_apply,
    val_main_v14_apply, val_main_v6_apply, val_main_v11_apply, val_main_v3_apply, val_main_v5_apply,
    val_main_v8_apply, val_main_v10_apply, val_main_v2_apply, val_main_v4_apply, val_main_v7_apply,
    val_main_v9_apply, val_main_v0_apply, val_main_v1_apply, val_main_v18_apply, val_main_v17_apply,
    idx_a0, idx_a1, idx_w]
  rfl

/-- The reference's attenuation term, summed over every index, is the loss's second sum. -/
theorem atten_sum (x0 x1 : (⟨S128x4x408, .f32⟩ : BufTy).Contents (Elt Ideal)) :
    ∑ j : S128x4x408.Idx, val_main_v32 (F := Ideal) x0 x1 j = attenSum x0 x1 := by
  rw [sum_idx3]
  unfold attenSum
  refine Finset.sum_congr rfl fun p _ => Finset.sum_congr rfl fun q _ => Finset.sum_congr rfl fun s _ => ?_
  rw [val_main_v32_apply, val_main_v31_apply, val_main_v30_apply, val_main_v24_apply, val_main_v23_apply,
    val_main_v21_apply, val_main_v22_apply, val_main_v29_apply, val_main_cst_0_apply, val_main_call0_v0_apply,
    val_main_call0_cst_apply]
  rfl

/-- The reference's radiation term, summed over every index, is the loss's third sum. -/
theorem rad_sum (x2 x3 : (⟨S128x4x64x408, .f32⟩ : BufTy).Contents (Elt Ideal)) :
    ∑ j : S128x4x64x408.Idx, val_main_v38 (F := Ideal) x2 x3 j = radSum x2 x3 := by
  rw [sum_idx4]
  unfold radSum
  refine Finset.sum_congr rfl fun p _ => Finset.sum_congr rfl fun q _ => Finset.sum_congr rfl fun r _ =>
    Finset.sum_congr rfl fun s _ => ?_
  rw [val_main_v38_apply, val_main_v37_apply, val_main_v36_apply, val_main_v28_apply, val_main_v27_apply,
    val_main_v25_apply, val_main_v26_apply, val_main_v35_apply, val_main_cst_3_apply, val_main_call1_v0_apply,
    val_main_call1_cst_apply]
  rfl

/-! ## The result -/

/-- The reference's result is the loss of its arguments: the three sums start from zero, and the last
    operations are the loss's combination. -/
theorem result_eq (x0 x1 : (⟨S128x4x408, .f32⟩ : BufTy).Contents (Elt Ideal)) (x2 x3 x4 x5 : (⟨S128x4x64x408, .f32⟩ : BufTy).Contents (Elt Ideal)) (x6 : (⟨S408, .f32⟩ : BufTy).Contents (Elt Ideal)) :
    val_main_v43 (F := Ideal) x0 x1 x2 x3 x4 x5 x6
      = fun _ => combine (recvSum x0 x1 x2 x3 x4 x5 x6) (attenSum x0 x1) (radSum x2 x3) := by
  funext i
  rw [val_main_v43_apply, val_main_v20_apply, val_main_v42_apply, val_main_v41_apply, val_main_v34_apply,
    val_main_v40_apply, val_main_v33_apply, val_main_v39_apply, recv_sum, atten_sum, rad_sum]
  show (Ideal.ofBits .f32 0x00000000#32 + recvSum x0 x1 x2 x3 x4 x5 x6)
      + Ideal.ofBits .f32 0x3C23D70A#32
        * (Ideal.div (Ideal.ofBits .f32 0x00000000#32 + attenSum x0 x1) (Ideal.ofBits .f32 0x484C0000#32)
          + Ideal.div (Ideal.ofBits .f32 0x00000000#32 + radSum x2 x3) (Ideal.ofBits .f32 0x4B4C0000#32)) = _
  rw [Ideal.ofBits_zero_f32, zero_add, zero_add, zero_add]
  rfl

end Cert.ReferenceIdeal.RefValue

end
-- ==== Proof.lean ====
/- The kernel computes a complex-valued weighted squared-error loss with two magnitude penalties,

       ∑ |a·r − t|² · w  +  c · ( (∑ relu(|a| − 1)²) / 208896  +  (∑ relu(|r| − 10)²) / 13369344 ),

   over 128 batch rows in 32 grid points of 4 rows each, keeping the three sums in one-cell accumulators that the
   first point starts from zero and the last point combines; the reference computes the three sums each in one
   reduction over every index. Both use the same words for the constants, and at every entry the same operations,
   so on the extended reals the two results differ only in how the sums are grouped, and addition there is
   commutative and associative: no finiteness of the inputs is used. The ideal pass rewrote nothing, so the
   kernel's idealization is the kernel's own text.

   Proof/LossTerms.lean states the loss as sums of scalar terms and regroups the 128 rows into 32 tiles;
   Proof/RunValue.lean reads the kernel's run (Proof/Pieces.lean: what a point leaves in each cell;
   Proof/PayloadValue.lean: those contents as sums) and Proof/RefValue.lean the reference's, both to the same
   term; Proof/LibSumForms.lean and Proof/LibTiles.lean hold the general facts about sums over index sets. -/
import proofs.«173876_j88373247082702_1_alg».proof.Defs
import proofs.«173876_j88373247082702_1_alg».proof.Proof.Gen.Kernel
import proofs.«173876_j88373247082702_1_alg».proof.Proof.Gen.Kernel.Skeleton
import proofs.«173876_j88373247082702_1_alg».proof.Proof.Gen.Kernel.Launch
import proofs.«173876_j88373247082702_1_alg».proof.Proof.Gen.Kernel.Points
import proofs.«173876_j88373247082702_1_alg».proof.Proof.Gen.Kernel.Frame
import proofs.«173876_j88373247082702_1_alg».proof.Proof.Gen.KernelIdeal
import proofs.«173876_j88373247082702_1_alg».proof.Proof.Gen.KernelIdeal.Skeleton
import proofs.«173876_j88373247082702_1_alg».proof.Proof.Gen.KernelIdeal.Launch
import proofs.«173876_j88373247082702_1_alg».proof.Proof.Gen.KernelIdeal.Points
import proofs.«173876_j88373247082702_1_alg».proof.Proof.Gen.KernelIdeal.Frame
import proofs.«173876_j88373247082702_1_alg».proof.Proof.Gen.ReferenceIdeal
import proofs.«173876_j88373247082702_1_alg».proof.Proof.Gen.ReferenceIdeal.Run
import proofs.«173876_j88373247082702_1_alg».proof.Proof.Gen.ReferenceIdeal.Read
import proofs.«173876_j88373247082702_1_alg».proof.Proof.Gen.Pre_finite_inputs
import proofs.«173876_j88373247082702_1_alg».proof.Proof.RunValue
import proofs.«173876_j88373247082702_1_alg».proof.Proof.RefValue
import Idealize.ShloMosaic.Adequacy
import Idealize.ShloMosaic.Init

noncomputable section

namespace Cert.Proof

open Idealize.ShloMosaic Idealize.SL.Sem

/-- The kernel terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's scalar result and the reference's are the loss of the same arrays. -/
theorem algebraic : Cert.algebraic_KernelIdeal_ReferenceIdeal := by
  intro m ρ m' ρ' _ hagree
  refine ⟨fun c => fun _ => Cert.KernelIdeal.RunValue.lossOf m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq, (hagree c).1,
    (hagree c).2.1, (hagree c).2.2.1, (hagree c).2.2.2.1, (hagree c).2.2.2.2.1, (hagree c).2.2.2.2.2.1,
    (hagree c).2.2.2.2.2.2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
